-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x250x250 : Shape := ⟨3, ![4096, 250, 250]⟩
abbrev S_ : Shape := ⟨0, ![]⟩

class Facts : Prop where
  bcast_S_S4096x250x250 : S_.BroadcastsInDim S4096x250x250 (![] : Fin 0 → Fin S4096x250x250.rank)
  reducesTo_S4096x250x250_S_d0_1_2 : S4096x250x250.ReducesTo [0, 1, 2] S_
  h_S_ : 0 < S_.numel

variable [Facts]

def fn {F : FTy → Type} [FloatOps F] (main_arg0 : FVec F S4096x250x250 .f32) : IVec S_ 1 :=
  let main_v0 : FVec F S4096x250x250 .f32 := Host.absf main_arg0
  let main_cst : FVec F S_ .f32 := constant S_ .f32 0x7F800000#32
  let main_v1 : FVec F S4096x250x250 .f32 := broadcastInDim S4096x250x250 ![] bcast_S_S4096x250x250 main_cst
  let main_v2 : IVec S4096x250x250 1 := cmpf .olt main_v0 main_v1
  let main_c : IVec S_ 1 := constantI S_ 1 1#1
  let main_v3 : IVec S_ 1 := (fun x v => Host.reduce IntOp.andi x v reducesTo_S4096x250x250_S_d0_1_2 h_S_) main_v2 main_c
  main_v3
-- ==== Kernel.lean ====
abbrev S4096x250x250 : Shape := ⟨3, ![4096, 250, 250]⟩
abbrev S4096x10 : Shape := ⟨2, ![4096, 10]⟩
abbrev S64x250x250 : Shape := ⟨3, ![64, 250, 250]⟩
abbrev S64x10 : Shape := ⟨2, ![64, 10]⟩
abbrev S64x12x12 : Shape := ⟨3, ![64, 12, 12]⟩
abbrev S64x12 : Shape := ⟨2, ![64, 12]⟩
abbrev S64 : Shape := ⟨1, ![64]⟩
abbrev S64x1 : Shape := ⟨2, ![64, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x250x250, .f32⟩
  | .hbm, ⟨1, _⟩ => ⟨S4096x10, .f32⟩
  | .local _ .vmem, ⟨0, _⟩ => ⟨S64x250x250, .f32⟩
  | .local _ .vmem, ⟨1, _⟩ => ⟨S64x250x250, .f32⟩
  | .local _ .vmem, ⟨2, _⟩ => ⟨S64x10, .f32⟩
  | .local _ .vmem, ⟨3, _⟩ => ⟨S64x10, .f32⟩
  | _, _ => ⟨S4096x250x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x250x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x250x250_S64x250x250_0_0_0 : ∀ a, (![0, 0, 0] : Fin 3 → Nat) a + S64x250x250.size a ≤ S64x250x250.size a
  h_S64x250x250 : 0 < S64x250x250.numel
  slices_S64x250x250_o0_0_0_S64x12x12 : S64x250x250.Slices ![0, 0, 0] S64x12x12
  reduces_S64x12x12_S64x12 : S64x12x12.Reduces [2] S64x12
  reduces_S64x12_S64 : S64x12.Reduces [1] S64
  shapeCasts_S64_S64x1 : S64.ShapeCasts S64x1
  shapeCasts_S64x1_S64x1 : S64x1.ShapeCasts S64x1
  broadcasts_S64x1_S64x10 : S64x1.Broadcasts S64x10
  reduces_S64x10_S64 : S64x10.Reduces [1] S64
  inb_S64x10_S64x10_0_0 : ∀ a, (![0, 0] : Fin 2 → Nat) a + S64x10.size a ≤ S64x10.size a
  h_S64x10 : 0 < S64x10.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x250x250.size a ≤ S4096x250x250.size a
  hwx0_0 : ∀ i : grid0.Coords, EltTy.bits .f32 = 32 ∨ (Rect.block (s := S4096x250x250) S64x250x250.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x10.size a ≤ S4096x10.size a
  hwx0_1 : ∀ i : grid0.Coords, EltTy.bits .f32 = 32 ∨ (Rect.block (s := S4096x10) S64x10.size (cc0_transform_1 i) (hinb0_1 i)).WholeWords (EltTy.packing .f32)

variable [Facts₀]

abbrev win0_0 : Pipeline.Window sig grid0 :=
  Pipeline.Window.ofSpec (Memref.whole main_arg0) S64x250x250.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x10.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x250x250 : Shape := ⟨3, ![4096, 250, 250]⟩
abbrev S4096x12x12 : Shape := ⟨3, ![4096, 12, 12]⟩
abbrev S_ : Shape := ⟨0, ![]⟩
abbrev S4096 : Shape := ⟨1, ![4096]⟩
abbrev S4096x1 : Shape := ⟨2, ![4096, 1]⟩
abbrev S4096x10 : Shape := ⟨2, ![4096, 10]⟩

abbrev nBuf : Space → Nat
  | .hbm => 51
  | .vmem => 0
  | .smem => 0
  | _ => 0

abbrev bufTy : (tb : Table) → Fin (tcTables nBuf tb) → BufTy
  | .hbm, ⟨0, _⟩ => ⟨S4096x250x250, .f32⟩
  | .hbm, ⟨1, _⟩ => ⟨S4096x250x250, .f32⟩
  | .hbm, ⟨2, _⟩ => ⟨S4096x250x250, .f32⟩
  | .hbm, ⟨3, _⟩ => ⟨S4096x12x12, .f32⟩
  | .hbm, ⟨4, _⟩ => ⟨S_, .f32⟩
  | .hbm, ⟨5, _⟩ => ⟨S4096, .f32⟩
  | .hbm, ⟨6, _⟩ => ⟨S4096x12x12, .f32⟩
  | .hbm, ⟨7, _⟩ => ⟨S_, .f32⟩
  | .hbm, ⟨8, _⟩ => ⟨S4096, .f32⟩
  | .hbm, ⟨9, _⟩ => ⟨S4096x12x12, .f32⟩
  | .hbm, ⟨10, _⟩ => ⟨S_, .f32⟩
  | .hbm, ⟨11, _⟩ => ⟨S4096, .f32⟩
  | .hbm, ⟨12, _⟩ => ⟨S4096x12x12, .f32⟩
  | .hbm, ⟨13, _⟩ => ⟨S_, .f32⟩
  | .hbm, ⟨14, _⟩ => ⟨S4096, .f32⟩
  | .hbm, ⟨15, _⟩ => ⟨S4096x12x12, .f32⟩
  | .hbm, ⟨16, _⟩ => ⟨S_, .f32⟩
  | .hbm, ⟨17, _⟩ => ⟨S4096, .f32⟩
  | .hbm, ⟨18, _⟩ => ⟨S4096x12x12, .f32⟩
  | .hbm, ⟨19, _⟩ => ⟨S_, .f32⟩
  | .hbm, ⟨20, _⟩ => ⟨S4096, .f32⟩
  | .hbm, ⟨21, _⟩ => ⟨S4096x12x12, .f32⟩
  | .hbm, ⟨22, _⟩ => ⟨S_, .f32⟩
  | .hbm, ⟨23, _⟩ => ⟨S4096, .f32⟩
  | .hbm, ⟨24, _⟩ => ⟨S4096x12x12, .f32⟩
  | .hbm, ⟨25, _⟩ => ⟨S_, .f32⟩
  | .hbm, ⟨26, _⟩ => ⟨S4096, .f32⟩
  | .hbm, ⟨27, _⟩ => ⟨S4096x12x12, .f32⟩
  | .hbm, ⟨28, _⟩ => ⟨S_, .f32⟩
  | .hbm, ⟨29, _⟩ => ⟨S4096, .f32⟩
  | .hbm, ⟨30, _⟩ => ⟨S4096x12x12, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x10, .f32⟩
  | .hbm, ⟨44, _⟩ => ⟨S4096x10, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S4096x10, .f32⟩
  | .hbm, ⟨50, _⟩ => ⟨S4096x10, .f32⟩
  | _, _ => ⟨S4096x250x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_cst_8 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  slices_S4096x250x250_S4096x12x12_0_0_0 : S4096x250x250.Slices ![0, 0, 0] S4096x12x12
  reducesTo_S4096x12x12_S4096_d1_2 : S4096x12x12.ReducesTo [1, 2] S4096
  h_S_ : 0 < S_.numel
  bcast_S4096_S4096x1_0 : S4096.BroadcastsInDim S4096x1 (![0] : Fin 1 → Fin S4096x1.rank)
  concatenates_S4096x1_S4096x1_S4096x1_S4096x1_S4096x1_S4096x1_S4096x1_S4096x1_S4096x1_S4096x1_S4096x10_d1 : Shape.Concatenates [S4096x1, S4096x1, S4096x1, S4096x1, S4096x1, S4096x1, S4096x1, S4096x1, S4096x1, S4096x1] S4096x10 1
  reducesTo_S4096x10_S4096_d1 : S4096x10.ReducesTo [1] S4096
  bcast_S4096x1_S4096x10_0_1 : S4096x1.BroadcastsInDim S4096x10 (![0, 1] : Fin 2 → Fin S4096x10.rank)

variable [Facts₀]

class Facts : Prop extends Facts₀ where

variable [Facts]
-- ==== Proof.PatchEnergy.lean ====
/-
  What both programs compute, as one function of the image stack.

  For image `b` of a stack `u : [N, 250, 250]` the pooled intensity is the energy of the leading 12 × 12 patch,
  `e b = ∑ r < 12, ∑ c < 12, u[b, r, c]²`. All ten pooling regions start at (0, 0), so the ten pooled values of a
  row are the same number `e b`, and the row is normalised by its Euclidean norm:
  `out[b, k] = e b / sqrt (∑ k' < 10, e b · e b)`, on the extended reals, with the division and the square root of
  the ideal instance (whatever they give at `0 / 0`, both programs apply them to the same two numbers).

  The one law that joins the two texts: the reference squares `|u|`, the kernel squares `u`, and
  `|a| · |a| = a · a` for every extended real (the infinities included).
-/
import Idealize.ShloMosaic.PureOps.Ideal
import Idealize.ShloMosaic.PureOps.Ideal.Laws
import Idealize.ShloMosaic.Lib.ValueIdx

noncomputable section

open scoped BigOperators

namespace Cert.PoolNorm

open Idealize.ShloMosaic Idealize.ShloMosaic.ValueIdx

/-- A row (or column) of the 12 × 12 patch, as a row (or column) of the 250 × 250 image. -/
abbrev inImage (r : Fin 12) : Fin 250 := ⟨r.val, Nat.lt_of_lt_of_le r.isLt (by decide)⟩

/-- The energy of image `b`'s leading 12 × 12 patch: the sum of the squares of its 144 entries. -/
def patchEnergy {N : Nat} (u : (⟨3, ![N, 250, 250]⟩ : Shape).Idx → EReal) (b : Fin N) : EReal :=
  ∑ r : Fin 12, ∑ c : Fin 12, u (ix3 b (inImage r) (inImage c)) * u (ix3 b (inImage r) (inImage c))

/-- A row of ten copies of `e`, divided by its Euclidean norm: one entry of it. -/
def unitTen (e : EReal) : EReal := Ideal.div e (Ideal.sqrt (∑ _k : Fin 10, e * e))

/-- The pooled, normalised output: every entry of row `b` is the normalised patch energy of image `b`. -/
def pooled {N : Nat} (u : (⟨3, ![N, 250, 250]⟩ : Shape).Idx → EReal) : (⟨2, ![N, 10]⟩ : Shape).Idx → EReal :=
  fun j => unitTen (patchEnergy u (j 0))

/-- The square of the absolute value is the square, on every extended real: `max a (-a)` is `a` when `0 ≤ a` and
    `-a` otherwise, and `(-a) · (-a) = a · a`. -/
theorem abs_mul_abs (a : EReal) : max a (-a) * max a (-a) = a * a := by
  rcases le_total 0 a with h | h
  · have h' : -a ≤ a := le_trans (EReal.neg_le.mp (by simpa using h)) h
    rw [max_eq_left h']
  · have h' : a ≤ -a := le_trans h (EReal.le_neg.mp (by simpa using h))
    rw [max_eq_right h', neg_mul_neg]

end Cert.PoolNorm

end
-- ==== Proof.KernelBlock.lean ====
/-
  The block one grid point leaves, at the ideal values.

  The body loads a [64, 250, 250] slab `P`, squares its leading [64, 12, 12] corner, sums over the columns and then over
  the rows (two lane reductions: a double sum), repeats that per-image number ten times along a new axis, and divides
  the row by the square root of the sum of its ten squares. So entry `(p, k)` of the [64, 10] block is the normalised
  patch energy of image `p` of the slab, for every `k`.
-/
import proofs.«146124_j56538949484865_1_alg».proof.Proof.Gen.KernelIdeal.Value
import proofs.«146124_j56538949484865_1_alg».proof.Proof.PatchEnergy
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.PoolNorm

/-- The two lane reductions of the squared corner are the double sum over the patch: at image `p` of the slab, the
    patch energy. The inner reduction runs over the columns (axis 2), the outer over the rows (axis 1); each starts
    from the neutral word, so nothing is added to the sums. -/
theorem rowEnergy (P : FVec Ideal S64x250x250 .f32) (hs : S64x250x250.Slices ![0, 0, 0] S64x12x12)
    (h2 : S64x12x12.Reduces [2] S64x12) (h1 : S64x12.Reduces [1] S64) (hφ : FKind.Formats .f32)
    (hacc : (0x00000000#32 : BitVec 32) = FKind.add.neutral .f32 hφ) (p : Fin 64) :
    multiReduction .add [1] S64
        (multiReduction .add [2] S64x12
          (mulf (extractStridedSlice S64x12x12 ![0, 0, 0] P hs) (extractStridedSlice S64x12x12 ![0, 0, 0] P hs))
          0x00000000#32 h2 hφ hacc)
        0x00000000#32 h1 hφ hacc (ix1 p)
      = patchEnergy P p := by
  refine (Ideal.multiReduction_add_single _ _ h1 hφ hacc (ix1 p)).trans ?_
  unfold patchEnergy
  refine Finset.sum_congr rfl fun r _ => ?_
  refine (Ideal.multiReduction_add_single _ _ h2 hφ hacc _).trans ?_
  refine Finset.sum_congr rfl fun c _ => ?_
  have e : extractStridedSlice S64x12x12 ![0, 0, 0] P hs (h2.lift (h1.lift (ix1 p) r) c)
      = P (ix3 p (inImage r) (inImage c)) :=
    extractStridedSlice_apply ![0, 0, 0] P hs _ (ix3 p (inImage r) (inImage c)) (fun a => match a with
      | ⟨0, _⟩ => by show p.val = 0 + p.val; omega
      | ⟨1, _⟩ => by show r.val = 0 + r.val; omega
      | ⟨2, _⟩ => by show c.val = 0 + c.val; omega)
  show extractStridedSlice S64x12x12 ![0, 0, 0] P hs (h2.lift (h1.lift (ix1 p) r) c)
      * extractStridedSlice S64x12x12 ![0, 0, 0] P hs (h2.lift (h1.lift (ix1 p) r) c) = _
  rw [e]

/-- A per-image column repeated along a new axis of ten: the [64] vector `v` recast to [64, 1] (twice, the second cast
    the identity) and broadcast to [64, 10] has `v p` at every `(p, k)`. -/
theorem repeatTen {α : Type} (v : S64.Idx → α) (c1 : S64.ShapeCasts S64x1) (c2 : S64x1.ShapeCasts S64x1)
    (hb : S64x1.Broadcasts S64x10) (p : Fin 64) (k : Fin 10) :
    broadcastTo S64x10 (shapeCast S64x1 (shapeCast S64x1 v c1) c2) hb (ix2 p k) = v (ix1 p) := by
  refine (broadcastTo_apply _ hb (ix2 p k) (ix2 p (0 : Fin 1)) (fun a => match a with
    | ⟨0, _⟩ => by show p.val = (if (64 : Nat) = 1 then 0 else p.val); rw [if_neg (by decide)]
    | ⟨1, _⟩ => by show 0 = (if (1 : Nat) = 1 then 0 else k.val); rw [if_pos rfl])).trans ?_
  refine (shapeCast_apply _ c2 (ix2 p (0 : Fin 1)) (ix2 p (0 : Fin 1)) rfl).trans ?_
  exact shapeCast_apply _ c1 (ix2 p (0 : Fin 1)) (ix1 p)
    (by rw [Shape.rowMajor_val_one, Shape.rowMajor_val_two]; show p.val = p.val * 1 + 0; omega)

/-- The lane reduction of the squared ten-fold repeat of `v` is, at image `p`, the sum of ten copies of `v p · v p`. -/
theorem tenSquares (v : FVec Ideal S64 .f32) (c1 : S64.ShapeCasts S64x1) (c2 : S64x1.ShapeCasts S64x1)
    (hb : S64x1.Broadcasts S64x10) (h10 : S64x10.Reduces [1] S64) (hφ : FKind.Formats .f32)
    (hacc : (0x00000000#32 : BitVec 32) = FKind.add.neutral .f32 hφ) (p : Fin 64) :
    multiReduction .add [1] S64
        (mulf (broadcastTo S64x10 (shapeCast S64x1 (shapeCast S64x1 v c1) c2) hb)
          (broadcastTo S64x10 (shapeCast S64x1 (shapeCast S64x1 v c1) c2) hb))
        0x00000000#32 h10 hφ hacc (ix1 p)
      = ∑ _k : Fin 10, v (ix1 p) * v (ix1 p) := by
  refine (Ideal.multiReduction_add_single _ _ h10 hφ hacc (ix1 p)).trans ?_
  refine Finset.sum_congr rfl fun k _ => ?_
  have e : h10.lift (ix1 p) k = ix2 p k := by
    funext a; apply Fin.ext
    match a with
    | ⟨0, _⟩ => rfl
    | ⟨1, _⟩ => rfl
  rw [e]
  show broadcastTo S64x10 (shapeCast S64x1 (shapeCast S64x1 v c1) c2) hb (ix2 p k)
      * broadcastTo S64x10 (shapeCast S64x1 (shapeCast S64x1 v c1) c2) hb (ix2 p k) = _
  rw [repeatTen v c1 c2 hb p k]

/-- THE BLOCK: what the body's one store leaves of a slab `P` is, at `(p, k)`, the normalised patch energy of image
    `p` of the slab. (`Value.E1` is the generated reading of the store's pieces at a block index.) -/
theorem block_eq (P : FVec Ideal S64x250x250 .f32) (p : Fin 64) (k : Fin 10) :
    Cert.KernelIdeal.Value.E1 (F := Ideal) P (ix2 p k) = unitTen (patchEnergy P p) := by
  unfold unitTen
  have i0 : Cert.KernelIdeal.Value.ix1_0 (ix2 p k) = ix1 p := by
    funext a; match a with | ⟨0, _⟩ => rfl
  have i1 : Cert.KernelIdeal.Value.ix1_1 (ix2 p k) = ix1 p := by
    funext a; match a with | ⟨0, _⟩ => rfl
  show Ideal.div (_) (Ideal.sqrt (_)) = _
  rw [i0, i1]
  refine congrArg₂ Ideal.div (rowEnergy P _ _ _ _ _ p) (congrArg Ideal.sqrt ?_)
  refine (tenSquares _ _ _ _ _ _ _ p).trans ?_
  refine Finset.sum_congr rfl fun _ _ => ?_
  exact congrArg₂ (· * ·) (rowEnergy P _ _ _ _ _ p) (rowEnergy P _ _ _ _ _ p)

end Cert.KernelIdeal.Block

end
-- ==== Proof.KernelWhole.lean ====
/-
  From the blocks to the whole output array.

  Grid point `t` (of 64) stages images `64 t … 64 t + 63` of the stack as its [64, 250, 250] slab and writes back rows
  `64 t … 64 t + 63` of the [4096, 10] result. Row `p` of what it writes is the normalised patch energy of image `p` of
  the slab, that is of image `64 t + p` of the stack: point `t` writes block `t` of ONE array, the pooled and normalised
  patch energies of the whole stack. The 64 blocks cover every row (row `b` lies in block `b / 64`), so after the run
  the result array is that array.
-/
import proofs.«146124_j56538949484865_1_alg».proof.Proof.Gen.KernelIdeal.Value
import proofs.«146124_j56538949484865_1_alg».proof.Proof.KernelBlock
import proofs.«146124_j56538949484865_1_alg».proof.Proof.PatchEnergy
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.PoolNorm
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The image stack as the region finds it, and the slab point `t` stages, at their literal types. -/
abbrev stack (c : Dev nD) : FVec Ideal S4096x250x250 .f32 := V m c main_arg0
abbrev slab (c : Dev nD) (t : Fin cfg0.N) : FVec Ideal S64x250x250 .f32 := iblk m c 0 t

/-- The printed index maps over the 64 grid points: both windows move along their leading axis with the point and
    stay at block 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- Image `p` of point `t`'s slab is image `64 t + p` of the stack, entry by entry. -/
theorem slab_entry (c : Dev nD) (t : Fin cfg0.N) (p : Fin 64) (r q : Fin 250) (b : Fin 4096)
    (hb : b.val = t.val * 64 + p.val) :
    slab m c t (ix3 p r q) = stack m c (ix3 b r q) := by
  obtain ⟨e0, e1, e2, -, -⟩ := idx_facts t
  show V m c main_arg0 (((cfg0.win 0).blk t).view.emb (ix3 p r q)) = V m c main_arg0 (ix3 b r q)
  refine congrArg (V m c main_arg0) ?_
  funext a; apply Fin.ext
  match a with
  | ⟨0, _⟩ => show win0_0.index t (0 : Fin 3) * 64 + 1 * p.val = b.val; omega
  | ⟨1, _⟩ => show win0_0.index t (1 : Fin 3) * 250 + 1 * r.val = r.val; omega
  | ⟨2, _⟩ => show win0_0.index t (2 : Fin 3) * 250 + 1 * q.val = q.val; omega

/-- So the patch energy of image `p` of the slab is the patch energy of image `64 t + p` of the stack. -/
theorem slab_energy (c : Dev nD) (t : Fin cfg0.N) (p : Fin 64) (b : Fin 4096) (hb : b.val = t.val * 64 + p.val) :
    patchEnergy (slab m c t) p = patchEnergy (stack m c) b := by
  unfold patchEnergy
  refine Finset.sum_congr rfl fun r _ => Finset.sum_congr rfl fun q _ => ?_
  rw [slab_entry m c t p (inImage r) (inImage q) b hb]

/-- WHAT POINT `t` WRITES BACK is block `t` of the pooled, normalised patch energies of the stack. -/
theorem flushed_eq (c : Dev nD) (t : Fin cfg0.N) :
    (dats m 0 c).flushed 1 t = ((cfg0.win 1).blk t).view.read (Elt Ideal) (pooled (stack m c)) := by
  rw [Cert.KernelIdeal.Value.flushed1]
  unfold out0_1
  simp only [View.ld_unit_zero (S := S64x250x250) zero3]
  funext j
  obtain ⟨p, k, rfl⟩ : ∃ (p : Fin 64) (k : Fin 10), j = ix2 p k := ⟨j 0, j 1, eq_ix2 j⟩
  obtain ⟨-, -, -, e3, e4⟩ := idx_facts t
  have ht : t.val < 64 := t.isLt
  have hp : p.val < 64 := p.isLt
  have hb : t.val * 64 + p.val < 4096 := by omega
  refine (Cert.KernelIdeal.Value.canon1_eq (F := Ideal) (slab m c t) (ix2 p k)).trans ?_
  refine (Cert.KernelIdeal.Block.block_eq (slab m c t) p k).trans ?_
  show unitTen (patchEnergy (slab m c t) p)
      = pooled (stack m c) (((cfg0.win 1).blk t).view.emb (ix2 p k))
  unfold pooled
  refine congrArg unitTen ?_
  refine (slab_energy m c t p ⟨t.val * 64 + p.val, hb⟩ rfl).trans ?_
  refine congrArg (patchEnergy (stack m c)) (Fin.ext ?_)
  show t.val * 64 + p.val = win0_1.index t (0 : Fin 2) * 64 + 1 * p.val
  omega

/-- An index of the result array is in point `t`'s block iff each coordinate is in the block's range on its axis. -/
theorem mem_blk (t : Fin cfg0.N) (i : S4096x10.Idx) :
    i ∈ ((cfg0.win 1).blk t).view.set ↔ ∀ a : Fin 2, win0_1.index t a * S64x10.size a ≤ (i a).val ∧ (i a).val < win0_1.index t a * S64x10.size a + S64x10.size a := by
  show i ∈ ((View.whole main_v0).slice (win0_1.rect t)).set ↔ _
  rw [View.set_slice_whole, Rect.mem_set_unit]
  exact Iff.rfl

/-- Every row of the result lies in some point's block: row `b` in block `b / 64`. -/
theorem cover (i : S4096x10.Idx) : ∃ t : Fin cfg0.N, (cfg0.win 1).flush t = true ∧ i ∈ ((cfg0.win 1).blk t).view.set := by
  have hi0 : (i 0).val < 4096 := (i 0).isLt
  have hi1 : (i 1).val < 10 := (i 1).isLt
  let t : Fin cfg0.N := ⟨(i 0).val / 64, by show (i 0).val / 64 < 64; omega⟩
  obtain ⟨-, -, -, e3, e4⟩ := idx_facts t
  have ht : t.val = (i 0).val / 64 := rfl
  refine ⟨t, flush0_1 t, ?_⟩
  rw [mem_blk]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 10 ≤ (i 1).val ∧ (i 1).val < win0_1.index t (1 : Fin 2) * 10 + 10; omega

/-- THE RESULT ARRAY after the run: the pooled, normalised patch energies of the stack as launched. -/
theorem final (c : Dev nD) :
    (dats m 0 c).arrAt 1 cfg0.N = pooled (m ((c : Thread nD τ).loc main_arg0)) :=
  (dats m 0 c).arrAt_eq_of_cover 1 (pooled (stack m c)) (fun t _ => flushed_eq m c t) (cover)

/-- The run, read: the result array ends at the pooled, normalised patch energies of the argument, the argument
    unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.LibSumInner2.lean ====
/-
  A sum over the two trailing axes of a rank-3 array, read at an index.

  The host's `stablehlo.reduce … add` across dimensions [1, 2] of an array of extents [n, a, b] has, at the ideal
  values, at row `j` the initial value plus the sum of every entry whose leading coordinate is `j`. The entries of a
  rank-3 array are the triples of coordinates, so that sum is the double sum over the two trailing coordinates:
  `init + ∑ r, ∑ c, x (j, r, c)`. Extended-real addition is commutative and associative with no side condition, so
  nothing is asked of the entries.
-/
import Idealize.ShloMosaic.PureOps.Ideal
import Idealize.ShloMosaic.PureOps.Reduce
import Idealize.ShloMosaic.Lib.ValueIdx

noncomputable section

open scoped BigOperators

namespace Idealize.ShloMosaic.SumInner2

open Idealize.ShloMosaic Idealize.ShloMosaic.ValueIdx

/-- A rank-3 index set is the product of its three coordinate ranges. -/
def idxEquiv3 {n a b : Nat} : (⟨3, ![n, a, b]⟩ : Shape).Idx ≃ Fin n × Fin a × Fin b where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n a b : Nat} (f : (⟨3, ![n, a, b]⟩ : Shape).Idx → M) :
    ∑ i, f i = ∑ p : Fin n, ∑ r : Fin a, ∑ c : Fin b, f (ix3 p r c) := by
  rw [← Equiv.sum_comp (idxEquiv3 (n := n) (a := a) (b := b)).symm f, Fintype.sum_prod_type]
  refine Finset.sum_congr rfl fun p _ => ?_
  rw [Fintype.sum_prod_type]
  rfl

/-- Of the entries of a rank-3 array, those whose leading coordinate is `j` sum to the double sum over the two trailing
    coordinates at `j`. -/
theorem sum_filter_lead {M : Type*} [AddCommMonoid M] {n a b : Nat} (f : (⟨3, ![n, a, b]⟩ : Shape).Idx → M) (j : Fin n) :
    ∑ i ∈ Finset.univ.filter (fun i : (⟨3, ![n, a, b]⟩ : Shape).Idx => (i 0).val = j.val), f i
      = ∑ r : Fin a, ∑ c : Fin b, f (ix3 j r c) := by
  rw [Finset.sum_filter, sum_idx3]
  have e : ∀ p : Fin n, (∑ r : Fin a, ∑ c : Fin b,
      (if ((ix3 p r c : (⟨3, ![n, a, b]⟩ : Shape).Idx) 0).val = j.val then f (ix3 p r c) else 0))
      = if p = j then ∑ r : Fin a, ∑ c : Fin b, f (ix3 j r c) else 0 := by
    intro p
    by_cases hp : p = j
    · subst hp
      rw [if_pos rfl]
      exact Finset.sum_congr rfl fun r _ => Finset.sum_congr rfl fun c _ => if_pos rfl
    · rw [if_neg hp]
      have hv : ¬p.val = j.val := fun h => hp (Fin.ext h)
      exact Finset.sum_eq_zero fun r _ => Finset.sum_eq_zero fun c _ => if_neg hv
  rw [Finset.sum_congr rfl fun p _ => e p, Finset.sum_ite_eq' Finset.univ j, if_pos (Finset.mem_univ _)]

/-- THE HOST'S SUM over axes [1, 2] of an [n, a, b] array, at the ideal values, read at row `j`: the initial value plus
    the double sum of the entries of that row's [a, b] slab. -/
theorem hostReduceAdd_inner2 {n a b : Nat}
    (h : (⟨3, ![n, a, b]⟩ : Shape).ReducesTo [1, 2] ⟨1, ![n]⟩)
    (x : (⟨3, ![n, a, b]⟩ : Shape).Idx → EReal) (init : EReal) (j : (⟨1, ![n]⟩ : Shape).Idx) :
    Ideal.hostReduceAdd h x init j = init + ∑ r : Fin a, ∑ c : Fin b, x (ix3 (j 0) r c) := by
  unfold Ideal.hostReduceAdd
  refine congrArg (init + ·) ?_
  rw [← sum_filter_lead x (j 0)]
  refine Finset.sum_congr (Finset.filter_congr fun i _ => ?_) fun _ _ => rfl
  constructor
  · intro hi
    rw [← hi]; rfl
  · intro hi
    funext d
    match d with
    | ⟨0, _⟩ => exact Fin.ext hi

end Idealize.ShloMosaic.SumInner2

end
-- ==== Proof.ReferenceRows.lean ====
/-
  The reference's result, read row by row, is the pooled and normalised patch energy.

  The reference squares `|u|` over the whole stack, slices the leading [4096, 12, 12] corner ten times (the ten
  pooling regions all start at (0, 0), so the ten slices are the same array), sums each over its two trailing axes from
  a zero initial value, lays the ten [4096] results side by side as the columns of a [4096, 10] array, and divides each
  row by the square root of the sum (from zero) of its ten squares. Entry `(b, k)` is therefore the patch energy of
  image `b`, whichever column `k`, over the square root of ten of its squares; `|a| · |a| = a · a` makes the energy
  the kernel's.
-/
import proofs.«146124_j56538949484865_1_alg».proof.Proof.Gen.ReferenceIdeal.Read
import proofs.«146124_j56538949484865_1_alg».proof.Proof.PatchEnergy
import proofs.«146124_j56538949484865_1_alg».proof.Proof.LibSumInner2
import Idealize.ShloMosaic.Lib.Pipeline.Value
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read
open Idealize.ShloMosaic Idealize.ShloMosaic.ValueIdx Idealize.ShloMosaic.SumInner2 Cert.PoolNorm

variable (x0 : (⟨S4096x250x250, .f32⟩ : BufTy).Contents (Elt Ideal))

/-- An entry of the sliced corner of the squared magnitudes is the square of the stack's entry there. -/
theorem corner_sq (b : Fin 4096) (r c : Fin 12) :
    val_main_v2 (F := Ideal) x0 (ix3 b r c)
      = x0 (ix3 b (inImage r) (inImage c)) * x0 (ix3 b (inImage r) (inImage c)) := by
  have e : idx_main_v2 (ix3 b r c) = ix3 b (inImage r) (inImage c) := by
    funext a
    match a with
    | ⟨0, _⟩ => rfl
    | ⟨1, _⟩ => rfl
    | ⟨2, _⟩ => rfl
  rw [val_main_v2_apply, val_main_v1_apply, val_main_v0_apply, e]
  exact abs_mul_abs _

/-- The host's sum over the two trailing axes of a [4096, 12, 12] array, at image `b`: the initial value plus the
    double sum over the patch. -/
theorem hostSumPatch (y : FVec Ideal S4096x12x12 .f32) (init : S_.Idx → Ideal .f32) (b : Fin 4096) :
    Host.reduceAdd (F := Ideal) y init reducesTo_S4096x12x12_S4096_d1_2 h_S_ (ix1 b)
      = init (Shape.Idx.first h_S_) + ∑ r : Fin 12, ∑ c : Fin 12, y (ix3 b r c) := by
  simp only [Host.reduceAdd, Ideal.hostReduceAdd_def]
  exact hostReduceAdd_inner2 _ y _ (ix1 b)

/-- One pooling region's value at image `b` is the patch energy. -/
theorem region_energy (b : Fin 4096) : val_main_v3 (F := Ideal) x0 (ix1 b) = patchEnergy x0 b := by
  unfold val_main_v3
  refine (hostSumPatch _ _ b).trans ?_
  rw [val_main_cst_apply]
  show Ideal.ofBits .f32 0x00000000#32 + _ = _
  rw [Ideal.ofBits_zero_f32, zero_add]
  unfold patchEnergy
  exact Finset.sum_congr rfl fun r _ => Finset.sum_congr rfl fun c _ => corner_sq x0 b r c

/-- The ten regions are one region: every column of the stacked array holds the patch energy of its row's image. The
    ten operands of the concatenation are the same [4096, 1] array, so which one a column falls in does not matter. -/
theorem stacked_energy (b : Fin 4096) (k : Fin 10) :
    val_main_v32 (F := Ideal) x0 (ix2 b k) = patchEnergy x0 b := by
  show concatenate S4096x10 1 (List.replicate 10 ⟨S4096x1, val_main_v22 (F := Ideal) x0⟩)
      concatenates_S4096x1_S4096x1_S4096x1_S4096x1_S4096x1_S4096x1_S4096x1_S4096x1_S4096x1_S4096x1_S4096x10_d1 (ix2 b k) = _
  refine (concatenate_replicate_apply (t := S4096x10) (s₁ := S4096x1) (1 : Fin 2) 10 (val_main_v22 (F := Ideal) x0) _ rfl (ix2 b k)
    (ix2 b (0 : Fin 1)) ?_ ?_).trans ?_
  · show 0 = k.val % 1
    omega
  · intro d hd
    match d with
    | ⟨0, _⟩ => rfl
    | ⟨1, _⟩ => exact absurd rfl hd
  have e : idx_main_v22 (ix2 b (0 : Fin 1)) = ix1 b := by
    funext a
    match a with
    | ⟨0, _⟩ => rfl
  rw [val_main_v22_apply, e]
  exact region_energy x0 b

/-- THE REFERENCE'S RESULT is the pooled, normalised patch energy of the stack. -/
theorem result_eq : val_main_v38 (F := Ideal) x0 = pooled x0 := by
  funext j
  obtain ⟨b, k, rfl⟩ : ∃ (b : Fin 4096) (k : Fin 10), j = ix2 b k := ⟨j 0, j 1, eq_ix2 j⟩
  have e34 : ∀ k' : Fin 10, idx_main_v34 (idx_main_v35 (idx_main_v37 (ix2 b k))) k' = ix2 b k' := by
    intro k'
    funext a
    match a with
    | ⟨0, _⟩ => rfl
    | ⟨1, _⟩ => rfl
  rw [val_main_v38_apply, val_main_v37_apply, val_main_v36_apply, val_main_v35_apply, val_main_v34_apply,
    stacked_energy x0 b k, val_main_cst_9_apply]
  show Ideal.div _ (Ideal.sqrt (Ideal.ofBits .f32 0x00000000#32 + _)) = Ideal.div _ (Ideal.sqrt _)
  rw [Ideal.ofBits_zero_f32, zero_add]
  refine congrArg (Ideal.div _) (congrArg Ideal.sqrt ?_)
  refine Finset.sum_congr rfl fun k' _ => ?_
  rw [e34 k', val_main_v33_apply, stacked_energy x0 b k']
  rfl

end Cert.ReferenceIdeal.Rows

end
-- ==== Proof.lean ====
/-
  Fixed-region sum pooling with per-row L2 normalisation: the kernel against its jnp reference, over the extended reals.

  For an image stack `u : [4096, 250, 250]` both programs return the [4096, 10] array whose row `b` holds ten copies of
  `e b / sqrt (∑ k < 10, e b · e b)`, where `e b = ∑ r < 12, ∑ c < 12, u[b, r, c]²` is the energy of image `b`'s leading
  12 × 12 patch (`Cert.PoolNorm.pooled`).

  • The kernel walks the stack in 64 slabs of 64 images. For each it squares the leading corner, sums it by two lane
    reductions, repeats the per-image sum ten times and normalises the row; point `t` writes rows `64 t … 64 t + 63`,
    and the 64 blocks tile the result (`Cert.KernelIdeal.Whole.run`).
  • The reference squares `|u|`, takes the same corner slice ten times (every region starts at (0, 0)), sums each
    over both trailing axes from zero, stacks the ten results as columns and normalises each row
    (`Cert.ReferenceIdeal.Rows.result_eq`).
  The two agree because `|a| · |a| = a · a` on every extended real, the zero initial values add nothing, and a double sum
  is the same whether taken as one reduction over two axes or as two reductions; the division and square root are the
  same ideal operations applied to the same two numbers on both sides. No finiteness of the input is used.

  The three frames are the generated ones (the reference's is its generated run with the result dropped), and the
  idealisation rewrote nothing, so `preserves` is trivial.
-/
import proofs.«146124_j56538949484865_1_alg».proof.Defs
import proofs.«146124_j56538949484865_1_alg».proof.Proof.Gen.Kernel
import proofs.«146124_j56538949484865_1_alg».proof.Proof.Gen.Kernel.Skeleton
import proofs.«146124_j56538949484865_1_alg».proof.Proof.Gen.Kernel.Launch
import proofs.«146124_j56538949484865_1_alg».proof.Proof.Gen.Kernel.Points
import proofs.«146124_j56538949484865_1_alg».proof.Proof.Gen.Kernel.Frame
import proofs.«146124_j56538949484865_1_alg».proof.Proof.Gen.KernelIdeal
import proofs.«146124_j56538949484865_1_alg».proof.Proof.Gen.KernelIdeal.Skeleton
import proofs.«146124_j56538949484865_1_alg».proof.Proof.Gen.KernelIdeal.Launch
import proofs.«146124_j56538949484865_1_alg».proof.Proof.Gen.KernelIdeal.Points
import proofs.«146124_j56538949484865_1_alg».proof.Proof.Gen.KernelIdeal.Frame
import proofs.«146124_j56538949484865_1_alg».proof.Proof.Gen.ReferenceIdeal
import proofs.«146124_j56538949484865_1_alg».proof.Proof.Gen.Pre_finite_inputs
import proofs.«146124_j56538949484865_1_alg».proof.Proof.Gen.KernelIdeal.Value
import proofs.«146124_j56538949484865_1_alg».proof.Proof.Gen.ReferenceIdeal.Run
import proofs.«146124_j56538949484865_1_alg».proof.Proof.Gen.ReferenceIdeal.Read
import proofs.«146124_j56538949484865_1_alg».proof.Proof.PatchEnergy
import proofs.«146124_j56538949484865_1_alg».proof.Proof.KernelWhole
import proofs.«146124_j56538949484865_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs and leaves the stack as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the stack, the kernel's result array and the reference's both end at the pooled,
    normalised patch energies of that stack. -/
theorem algebraic : Cert.algebraic_KernelIdeal_ReferenceIdeal := by
  intro m ρ m' ρ' _ hagree
  refine ⟨fun c => Cert.PoolNorm.pooled (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Rows.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
